-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S1x384 : S_.BroadcastsInDim S1x384 (![] : Fin 0 → Fin S1x384.rank)
  reducesTo_S1x384_S_d0_1 : S1x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S128 .f32) (main_arg10 : FVec F S128x128 .f32) (main_arg11 : FVec F S1x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  main_v48

def fn_part1 {F : FTy → Type} [FloatOps F] (main_arg6 : FVec F S384x128 .f32) (main_arg7 : FVec F S1x384 .f32) (main_arg8 : FVec F S128x128 .f32) (main_arg9 : FVec F S128 .f32) (main_arg10 : FVec F S128x128 .f32) (main_arg11 : FVec F S1x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S1x384 .f32 := Host.absf main_arg7
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S262144x128 .f32) (main_arg1 : FVec F S262144x128 .f32) (main_arg2 : FVec F S262144x128 .f32) (main_arg3 : IVec S262144 32) (main_arg4 : IVec S262144 32) (main_arg5 : FVec F S384x128 .f32) (main_arg6 : FVec F S384x128 .f32) (main_arg7 : FVec F S1x384 .f32) (main_arg8 : FVec F S128x128 .f32) (main_arg9 : FVec F S128 .f32) (main_arg10 : FVec F S128x128 .f32) (main_arg11 : FVec F S1x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_v13 main_v16
-- ==== Kernel.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S_ : Shape := ⟨0, ![]⟩
abbrev S262144x1 : Shape := ⟨2, ![262144, 1]⟩
abbrev S128x384 : Shape := ⟨2, ![128, 384]⟩
abbrev S2048x128 : Shape := ⟨2, ![2048, 128]⟩
abbrev S2048x384 : Shape := ⟨2, ![2048, 384]⟩

abbrev nBuf : Space → Nat
  | .hbm => 49
  | .vmem => 19
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S262144, .i32⟩
  | .hbm, ⟨5, _⟩ => ⟨S384x128, .f32⟩
  | .hbm, ⟨6, _⟩ => ⟨S384x128, .f32⟩
  | .hbm, ⟨7, _⟩ => ⟨S1x384, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x1, .i32⟩
  | .hbm, ⟨24, _⟩ => ⟨S262144x128, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x1, .i32⟩
  | .hbm, ⟨37, _⟩ => ⟨S262144x128, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S128x384, .f32⟩
  | .hbm, ⟨43, _⟩ => ⟨S128x384, .bf16⟩
  | .hbm, ⟨44, _⟩ => ⟨S128x384, .f32⟩
  | .hbm, ⟨45, _⟩ => ⟨S128x384, .bf16⟩
  | .hbm, ⟨46, _⟩ => ⟨S1x128, .f32⟩
  | .hbm, ⟨47, _⟩ => ⟨S262144x128, .f32⟩
  | .hbm, ⟨48, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S1x128, .f32⟩
  | .local _ .vmem, ⟨12, _⟩ => ⟨S128x384, .bf16⟩
  | .local _ .vmem, ⟨13, _⟩ => ⟨S128x384, .bf16⟩
  | .local _ .vmem, ⟨14, _⟩ => ⟨S1x384, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  transposes_S128x128_S128x128_1_0 : S128x128.Transposes [1, 0] S128x128
  bitsLt_bf16_f32 : FTy.bits .bf16 < FTy.bits .f32
  transposes_S384x128_S128x384_1_0 : S384x128.Transposes [1, 0] S128x384
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  broadcasts_S1x128_S2048x128 : S1x128.Broadcasts S2048x128
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  gather_S262144x128_S262144x1_S262144x128_1_0_n_n_0_1_1128_wf : GatherDims.WF S262144x128 S262144x1 S262144x128 [1] [0] [] [0] [] 1 ![1, 128]
  scatter_S262144x128_S262144x1_S262144x128_1_0_0_1_wf : ScatterDims.WF S262144x128 S262144x1 S262144x128 [1] [0] [0] 1
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .bf16 = 32 ∨ (Rect.block (s := S128x384) S128x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x384.size a ≤ S128x384.size a
  hwx0_9 : ∀ i : grid0.Coords, EltTy.bits .bf16 = 32 ∨ (Rect.block (s := S128x384) S128x384.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S262144x128.size a
  hwx0_11 : ∀ i : grid0.Coords, EltTy.bits .f32 = 32 ∨ (Rect.block (s := S262144x128) S2048x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S262144x128.size a
  hwx0_12 : ∀ i : grid0.Coords, EltTy.bits .f32 = 32 ∨ (Rect.block (s := S262144x128) S2048x128.size (cc0_transform_12 i) (hinb0_12 i)).WholeWords (EltTy.packing .f32)

variable [Facts₀]

def gather_S262144x128_S262144x1_S262144x128_1_0_n_n_0_1_1128 : GatherDims S262144x128 S262144x1 S262144x128 where
  offsetDims := [1]
  collapsedSliceDims := [0]
  operandBatchingDims := []
  startIndicesBatchingDims := []
  startIndexMap := [0]
  indexVectorDim := 1
  sliceSizes := ![1, 128]
  wf := gather_S262144x128_S262144x1_S262144x128_1_0_n_n_0_1_1128_wf
def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S128x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29_0) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v29_1) S2048x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S_ : Shape := ⟨0, ![]⟩
abbrev S262144x1 : Shape := ⟨2, ![262144, 1]⟩
abbrev S128x384 : Shape := ⟨2, ![128, 384]⟩
abbrev S262144x384 : Shape := ⟨2, ![262144, 384]⟩

abbrev nBuf : Space → Nat
  | .hbm => 88
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S262144, .i32⟩
  | .hbm, ⟨5, _⟩ => ⟨S384x128, .f32⟩
  | .hbm, ⟨6, _⟩ => ⟨S384x128, .f32⟩
  | .hbm, ⟨7, _⟩ => ⟨S1x384, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x1, .i32⟩
  | .hbm, ⟨24, _⟩ => ⟨S262144x128, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x1, .i32⟩
  | .hbm, ⟨37, _⟩ => ⟨S262144x128, .f32⟩
  | .hbm, ⟨38, _⟩ => ⟨S128x128, .f32⟩
  | .hbm, ⟨39, _⟩ => ⟨S262144x128, .f32⟩
  | .hbm, ⟨40, _⟩ => ⟨S128x128, .f32⟩
  | .hbm, ⟨41, _⟩ => ⟨S262144x128, .f32⟩
  | .hbm, ⟨42, _⟩ => ⟨S262144x128, .f32⟩
  | .hbm, ⟨43, _⟩ => ⟨S1x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S_, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S128x384, .f32⟩
  | .hbm, ⟨58, _⟩ => ⟨S262144x384, .f32⟩
  | .hbm, ⟨59, _⟩ => ⟨S128x384, .f32⟩
  | .hbm, ⟨60, _⟩ => ⟨S262144x384, .f32⟩
  | .hbm, ⟨61, _⟩ => ⟨S262144x384, .f32⟩
  | .hbm, ⟨62, _⟩ => ⟨S262144x384, .f32⟩
  | .hbm, ⟨63, _⟩ => ⟨S262144x384, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S262144x128, .f32⟩
  | .hbm, ⟨69, _⟩ => ⟨S_, .f32⟩
  | .hbm, ⟨70, _⟩ => ⟨S262144x128, .f32⟩
  | .hbm, ⟨71, _⟩ => ⟨S262144x128, .f32⟩
  | .hbm, ⟨72, _⟩ => ⟨S_, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S_, .f32⟩
  | .hbm, ⟨81, _⟩ => ⟨S262144x128, .f32⟩
  | .hbm, ⟨82, _⟩ => ⟨S262144x128, .f32⟩
  | .hbm, ⟨83, _⟩ => ⟨S_, .f32⟩
  | .hbm, ⟨84, _⟩ => ⟨S262144x128, .f32⟩
  | .hbm, ⟨85, _⟩ => ⟨S262144x128, .f32⟩
  | .hbm, ⟨86, _⟩ => ⟨S262144x128, .f32⟩
  | .hbm, ⟨87, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S384x128_S128x384_1_0 : S384x128.Transposes [1, 0] S128x384
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  gather_S262144x128_S262144x1_S262144x128_1_0_n_n_0_1_1128_wf : GatherDims.WF S262144x128 S262144x1 S262144x128 [1] [0] [] [0] [] 1 ![1, 128]
  scatter_S262144x128_S262144x1_S262144x128_1_0_0_1_wf : ScatterDims.WF S262144x128 S262144x1 S262144x128 [1] [0] [0] 1
  dot_S262144x128_S128x128_S262144x128_1_0_0_1_n_n_wf : DotDims.WF S262144x128 S128x128 S262144x128 [1] [0] [0] [1] [] []
  dot_S262144x128_S128x384_S262144x384_1_0_0_1_n_n_wf : DotDims.WF S262144x128 S128x384 S262144x384 [1] [0] [0] [1] [] []

variable [Facts₀]

def gather_S262144x128_S262144x1_S262144x128_1_0_n_n_0_1_1128 : GatherDims S262144x128 S262144x1 S262144x128 where
  offsetDims := [1]
  collapsedSliceDims := [0]
  operandBatchingDims := []
  startIndicesBatchingDims := []
  startIndexMap := [0]
  indexVectorDim := 1
  sliceSizes := ![1, 128]
  wf := gather_S262144x128_S262144x1_S262144x128_1_0_n_n_0_1_1128_wf
def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf

class Facts : Prop extends Facts₀ where

variable [Facts]
-- ==== Proof.TileProducts.lean ====
/-
  A tile's matrix products, entry by entry.

  The kernel multiplies a tile of 2048 rows of 128 by a 128 × 128 matrix (the forget gate's two products) and by a
  128 × 384 matrix (the gate matrix's two products), each accumulated from zero. Over the extended reals such a
  product's entry `(r, j)` is the plain sum `Σ_k A_rk · B_kj` over the one contracted axis of length 128: the
  contraction index of the product is that one coordinate.
-/
import proofs.«179906_j29386166239562_1_alg».proof.Proof.Gen.KernelIdeal
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## The 128-column products (forget gate) -/

theorem lhsW_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsW_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsW_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsW_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Entry `(r, j)` of a tile's product with a 128-column matrix, accumulated from zero, is the sum over the 128
    contracted positions of the row's entries times the column's. -/
theorem productW_apply (A : FVec Ideal S2048x128 .bf16) (B : FVec Ideal S128x128 .bf16) (r : Fin 2048) (j : Fin 128) :
    matmul dot_S2048x128_S128x128_S2048x128_1_0_0_1_n_n none A B (constant S2048x128 .f32 0x00000000#32) (ix2 r j)
      = ∑ k : Fin 128, A (ix2 r k) * B (ix2 k j) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r j) ((ValueIdx.contrEquiv1 dot_S2048x128_S128x128_S2048x128_1_0_0_1_n_n 128 rfl rfl).symm k) = ix2 r k := funext fun a => Fin.ext (by
    match a with
    | ⟨0, _⟩ => exact lhsW_0 _ _
    | ⟨1, _⟩ => exact (lhsW_1 _ _).trans hk)
  have er : dot_S2048x128_S128x128_S2048x128_1_0_0_1_n_n.rhsIdx (ix2 r j) ((ValueIdx.contrEquiv1 dot_S2048x128_S128x128_S2048x128_1_0_0_1_n_n 128 rfl rfl).symm k) = ix2 k j := funext fun a => Fin.ext (by
    match a with
    | ⟨0, _⟩ => exact (rhsW_0 _ _).trans hk
    | ⟨1, _⟩ => exact rhsW_1 _ _)
  rw [el, er]

/-! ## The 384-column products (gate matrix) -/

theorem lhsG_0 (i : S2048x384.Idx) (q : dot_S2048x128_S128x384_S2048x384_1_0_0_1_n_n.contr.Idx) :
    (dot_S2048x128_S128x384_S2048x384_1_0_0_1_n_n.lhsIdx i q 0).val = (i 0).val := by
  unfold DotDims.lhsIdx
  rw [dif_neg (show ¬(0 : Fin S2048x128.rank) ∈ dot_S2048x128_S128x384_S2048x384_1_0_0_1_n_n.lhsBatch by decide), dif_pos (show (0 : Fin S2048x128.rank) ∈ dot_S2048x128_S128x384_S2048x384_1_0_0_1_n_n.lhsNonContracting by decide)]
  rfl
theorem lhsG_1 (i : S2048x384.Idx) (q : dot_S2048x128_S128x384_S2048x384_1_0_0_1_n_n.contr.Idx) :
    (dot_S2048x128_S128x384_S2048x384_1_0_0_1_n_n.lhsIdx i q 1).val = (q ⟨0, by decide⟩).val :=
  dot_S2048x128_S128x384_S2048x384_1_0_0_1_n_n.lhsIdx_val_of_single rfl i q
theorem rhsG_0 (i : S2048x384.Idx) (q : dot_S2048x128_S128x384_S2048x384_1_0_0_1_n_n.contr.Idx) :
    (dot_S2048x128_S128x384_S2048x384_1_0_0_1_n_n.rhsIdx i q 0).val = (q ⟨0, by decide⟩).val :=
  dot_S2048x128_S128x384_S2048x384_1_0_0_1_n_n.rhsIdx_val_of_single rfl i q
theorem rhsG_1 (i : S2048x384.Idx) (q : dot_S2048x128_S128x384_S2048x384_1_0_0_1_n_n.contr.Idx) :
    (dot_S2048x128_S128x384_S2048x384_1_0_0_1_n_n.rhsIdx i q 1).val = (i 1).val := by
  unfold DotDims.rhsIdx
  rw [dif_neg (show ¬(1 : Fin S128x384.rank) ∈ dot_S2048x128_S128x384_S2048x384_1_0_0_1_n_n.rhsBatch by decide), dif_pos (show (1 : Fin S128x384.rank) ∈ dot_S2048x128_S128x384_S2048x384_1_0_0_1_n_n.rhsNonContracting by decide)]
  rfl

/-- Entry `(r, j)` of a tile's product with a 384-column matrix, accumulated from zero, is the sum over the 128
    contracted positions of the row's entries times the column's. -/
theorem productG_apply (A : FVec Ideal S2048x128 .bf16) (B : FVec Ideal S128x384 .bf16) (r : Fin 2048) (j : Fin 384) :
    matmul dot_S2048x128_S128x384_S2048x384_1_0_0_1_n_n none A B (constant S2048x384 .f32 0x00000000#32) (ix2 r j)
      = ∑ k : Fin 128, A (ix2 r k) * B (ix2 k j) := by
  simp only [matmul]
  rw [Ideal.matmul_constant_zero_apply, ← Equiv.sum_comp (ValueIdx.contrEquiv1 dot_S2048x128_S128x384_S2048x384_1_0_0_1_n_n 128 rfl rfl).symm]
  refine Finset.sum_congr rfl fun k _ => ?_
  have hk := ValueIdx.contrEquiv1_symm_val dot_S2048x128_S128x384_S2048x384_1_0_0_1_n_n 128 rfl rfl k
  have el : dot_S2048x128_S128x384_S2048x384_1_0_0_1_n_n.lhsIdx (ix2 r j) ((ValueIdx.contrEquiv1 dot_S2048x128_S128x384_S2048x384_1_0_0_1_n_n 128 rfl rfl).symm k) = ix2 r k := funext fun a => Fin.ext (by
    match a with
    | ⟨0, _⟩ => exact lhsG_0 _ _
    | ⟨1, _⟩ => exact (lhsG_1 _ _).trans hk)
  have er : dot_S2048x128_S128x384_S2048x384_1_0_0_1_n_n.rhsIdx (ix2 r j) ((ValueIdx.contrEquiv1 dot_S2048x128_S128x384_S2048x384_1_0_0_1_n_n 128 rfl rfl).symm k) = ix2 k j := funext fun a => Fin.ext (by
    match a with
    | ⟨0, _⟩ => exact (rhsG_0 _ _).trans hk
    | ⟨1, _⟩ => exact rhsG_1 _ _)
  rw [el, er]

end Cert.KernelIdeal.Tile

end
-- ==== Proof.Spec.lean ====
/-
  The TreeLSTM cell, node by node, over the extended reals.

  A node has an input row `x` (128 numbers), its own hidden row `h`, and the two mailbox rows `hs`, `cs`
  (the sums of its children's hidden and memory rows). With the weight matrices laid out contraction index first
  (`wf`, `uf` : 128 × 128 and `wi`, `ui` : 128 × 384) and the biases as single rows:

    forget gate      f_j  = σ (Σ_k x_k · wf_kj + Σ_k h_k · uf_kj + ufb_j + bf_j)
    gate matrix      g_q  = Σ_k x_k · wi_kq + Σ_k hs_k · ui_kq + bi_q            (q < 384: columns i | o | u)
    new memory       c'_j = σ (g_j) · tanh (g_{j+256}) + f_j · cs_j
    new hidden       h'_j = σ (g_{j+128}) · tanh (c'_j)

  Every value of a node depends on that node's rows only: this is what lets a tile of 2048 nodes be computed from
  the tile's rows and still be the tile of the whole array's result.
-/
import Idealize.ShloMosaic.PureOps.Ideal
import Idealize.ShloMosaic.Lib.ValueIdx
import Idealize.ShloMosaic.Lib.IdealHost

noncomputable section

namespace Cert.TreeCell

open Idealize.ShloMosaic Idealize.ShloMosaic.ValueIdx
open scoped BigOperators

/-- A row of 128 extended reals. -/
abbrev Row := Fin 128 → EReal

/-- Column `j` of the input-gate third of the 384 gate columns. -/
abbrev colI (j : Fin 128) : Fin 384 := ⟨j.val, by have := j.isLt; omega⟩
/-- Column `j` of the output-gate third: `j + 128`. -/
abbrev colO (j : Fin 128) : Fin 384 := ⟨j.val + 128, by have := j.isLt; omega⟩
/-- Column `j` of the update third: `j + 256`. -/
abbrev colU (j : Fin 128) : Fin 384 := ⟨j.val + 256, by have := j.isLt; omega⟩

/-- The forget gate's argument at column `j`: `x · wf[:, j] + h · uf[:, j] + ufb[j] + bf[j]`. -/
def forgetPre (x h : Row) (wf uf : (⟨2, ![128, 128]⟩ : Shape).Idx → EReal)
    (ufb bf : (⟨2, ![1, 128]⟩ : Shape).Idx → EReal) (j : Fin 128) : EReal :=
  (∑ k : Fin 128, x k * wf (ix2 k j)) + (∑ k : Fin 128, h k * uf (ix2 k j)) + ufb (ix2 (0 : Fin 1) j) + bf (ix2 (0 : Fin 1) j)

/-- Column `q` of the gate matrix: `x · wi[:, q] + hs · ui[:, q] + bi[q]`. -/
def gatePre (x hs : Row) (wi ui : (⟨2, ![128, 384]⟩ : Shape).Idx → EReal)
    (bi : (⟨2, ![1, 384]⟩ : Shape).Idx → EReal) (q : Fin 384) : EReal :=
  (∑ k : Fin 128, x k * wi (ix2 k q)) + (∑ k : Fin 128, hs k * ui (ix2 k q)) + bi (ix2 (0 : Fin 1) q)

/-- The new memory row: `σ(i) · tanh(u) + σ(f) · cs`. -/
def newC (x h hs cs : Row) (wf uf : (⟨2, ![128, 128]⟩ : Shape).Idx → EReal)
    (ufb bf : (⟨2, ![1, 128]⟩ : Shape).Idx → EReal) (wi ui : (⟨2, ![128, 384]⟩ : Shape).Idx → EReal)
    (bi : (⟨2, ![1, 384]⟩ : Shape).Idx → EReal) (j : Fin 128) : EReal :=
  Ideal.logistic (gatePre x hs wi ui bi (colI j)) * Ideal.tanh (gatePre x hs wi ui bi (colU j))
    + Ideal.logistic (forgetPre x h wf uf ufb bf j) * cs j

/-- The new hidden row: `σ(o) · tanh(c')`. -/
def newH (x h hs cs : Row) (wf uf : (⟨2, ![128, 128]⟩ : Shape).Idx → EReal)
    (ufb bf : (⟨2, ![1, 128]⟩ : Shape).Idx → EReal) (wi ui : (⟨2, ![128, 384]⟩ : Shape).Idx → EReal)
    (bi : (⟨2, ![1, 384]⟩ : Shape).Idx → EReal) (j : Fin 128) : EReal :=
  Ideal.logistic (gatePre x hs wi ui bi (colO j)) * Ideal.tanh (newC x h hs cs wf uf ufb bf wi ui bi j)

/-- Row `r` of an array of `n` rows of 128. -/
abbrev rowOf {n : Nat} (a : (⟨2, ![n, 128]⟩ : Shape).Idx → EReal) (r : Fin n) : Row := fun k => a (ix2 r k)

/-- The new memory of all `n` nodes of an array, node by node. -/
def newCArr {n : Nat} (x h hs cs : (⟨2, ![n, 128]⟩ : Shape).Idx → EReal)
    (wf uf : (⟨2, ![128, 128]⟩ : Shape).Idx → EReal)
    (ufb bf : (⟨2, ![1, 128]⟩ : Shape).Idx → EReal) (wi ui : (⟨2, ![128, 384]⟩ : Shape).Idx → EReal)
    (bi : (⟨2, ![1, 384]⟩ : Shape).Idx → EReal) : (⟨2, ![n, 128]⟩ : Shape).Idx → EReal :=
  fun i => newC (rowOf x (i 0)) (rowOf h (i 0)) (rowOf hs (i 0)) (rowOf cs (i 0)) wf uf ufb bf wi ui bi (i 1)

/-- The new hidden state of all `n` nodes of an array, node by node. -/
def newHArr {n : Nat} (x h hs cs : (⟨2, ![n, 128]⟩ : Shape).Idx → EReal)
    (wf uf : (⟨2, ![128, 128]⟩ : Shape).Idx → EReal)
    (ufb bf : (⟨2, ![1, 128]⟩ : Shape).Idx → EReal) (wi ui : (⟨2, ![128, 384]⟩ : Shape).Idx → EReal)
    (bi : (⟨2, ![1, 384]⟩ : Shape).Idx → EReal) : (⟨2, ![n, 128]⟩ : Shape).Idx → EReal :=
  fun i => newH (rowOf x (i 0)) (rowOf h (i 0)) (rowOf hs (i 0)) (rowOf cs (i 0)) wf uf ufb bf wi ui bi (i 1)

/-- The logistic function spelt with the pattern of `1.0`, a negation, an exponential, a sum and a quotient is the
    logistic function: the pattern `0x3F800000` is the real number one. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end Cert.TreeCell

end
-- ==== Proof.TileValue.lean ====
/-
  What one grid step leaves in its two output tiles, entry by entry.

  The step's stores put, at entry `(r, j)` of the tile, the body's elementwise operations of the gate matrix
  `x · wi + hs · ui` (read at columns `j`, `j + 128`, `j + 256`, with the bias row added) and of the forget term
  `σ (x · wf + h · uf + ufb + bf) · cs`. With the four matrix products read as sums over the contracted axis these are
  the cell's new hidden and memory values of node `r` of the tile, as functions of that node's four rows.
-/
import proofs.«179906_j29386166239562_1_alg».proof.Proof.Gen.KernelIdeal.Value
import proofs.«179906_j29386166239562_1_alg».proof.Proof.TileProducts
import proofs.«179906_j29386166239562_1_alg».proof.Proof.Spec
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.TreeCell
open scoped BigOperators

/-- The gate matrix of a tile before its bias: entry `(r, q)` is `Σ_k x_rk · wi_kq + Σ_k hs_rk · ui_kq`. -/
theorem gate_apply (P0 P1 : Vec Ideal S2048x128 .f32) (P2 P3 : Vec Ideal S128x384 .bf16) (r : Fin 2048) (q : Fin 384) :
    k0_pay6 (F := Ideal) P0 P1 P2 P3 (ix2 r q)
      = (∑ k : Fin 128, P0 (ix2 r k) * P2 (ix2 k q)) + ∑ k : Fin 128, P1 (ix2 r k) * P3 (ix2 k q) := by
  unfold k0_pay6 k0_pay4
  simp only [shapeCast_self]
  rw [ValueIdx.addf_apply, productG_apply, productG_apply]
  rfl

/-- The forget term of a tile: entry `(r, j)` is `σ (Σ_k x_rk · wf_kj + Σ_k h_rk · uf_kj + ufb_j + bf_j) · cs_rj`. -/
theorem forget_apply (P0 P5 P6 : Vec Ideal S2048x128 .f32) (P7 P8 : Vec Ideal S128x128 .bf16)
    (P9 P10 : Vec Ideal S1x128 .f32) (r : Fin 2048) (j : Fin 128) :
    k0_pay5 (F := Ideal) P0 P5 P6 P7 P8 P9 P10 (ix2 r j)
      = Ideal.logistic ((∑ k : Fin 128, P0 (ix2 r k) * P7 (ix2 k j)) + (∑ k : Fin 128, P5 (ix2 r k) * P8 (ix2 k j))
          + P9 (ix2 (0 : Fin 1) j) + P10 (ix2 (0 : Fin 1) j)) * P6 (ix2 r j) := by
  unfold k0_pay5 k0_pay4
  simp only [shapeCast_self]
  rw [ValueIdx.mulf_apply]
  refine congrArg₂ (· * ·) (congrArg Ideal.logistic ?_) rfl
  rw [ValueIdx.addf_apply, ValueIdx.addf_apply, ValueIdx.addf_apply, productW_apply, productW_apply,
    broadcastTo_1b_ab_apply, broadcastTo_1b_ab_apply]
  rfl

/-! ## The columns and rows the tile's entries read -/

theorem ix11_0_eq (r : Fin 2048) (j : Fin 128) : Value.ix11_0 (ix2 r j) = ix2 r (colO j) := by
  funext a; match a with | ⟨0, _⟩ => rfl | ⟨1, _⟩ => rfl
theorem ix11_1_eq (r : Fin 2048) (j : Fin 128) : Value.ix11_1 (ix2 r j) = ix2 (0 : Fin 1) (colO j) := by
  funext a; match a with | ⟨0, _⟩ => rfl | ⟨1, _⟩ => rfl
theorem ix11_2_eq (r : Fin 2048) (j : Fin 128) : Value.ix11_2 (ix2 r j) = ix2 r (colI j) := by
  funext a; match a with | ⟨0, _⟩ => rfl | ⟨1, _⟩ => rfl
theorem ix11_3_eq (r : Fin 2048) (j : Fin 128) : Value.ix11_3 (ix2 r j) = ix2 (0 : Fin 1) (colI j) := by
  funext a; match a with | ⟨0, _⟩ => rfl | ⟨1, _⟩ => rfl
theorem ix11_4_eq (r : Fin 2048) (j : Fin 128) : Value.ix11_4 (ix2 r j) = ix2 r (colU j) := by
  funext a; match a with | ⟨0, _⟩ => rfl | ⟨1, _⟩ => rfl
theorem ix11_5_eq (r : Fin 2048) (j : Fin 128) : Value.ix11_5 (ix2 r j) = ix2 (0 : Fin 1) (colU j) := by
  funext a; match a with | ⟨0, _⟩ => rfl | ⟨1, _⟩ => rfl
theorem ix11_6_eq (r : Fin 2048) (j : Fin 128) : Value.ix11_6 (ix2 r j) = ix2 r j := by
  funext a; match a with | ⟨0, _⟩ => rfl | ⟨1, _⟩ => rfl
theorem ix12_0_eq (r : Fin 2048) (j : Fin 128) : Value.ix12_0 (ix2 r j) = ix2 r (colI j) := by
  funext a; match a with | ⟨0, _⟩ => rfl | ⟨1, _⟩ => rfl
theorem ix12_1_eq (r : Fin 2048) (j : Fin 128) : Value.ix12_1 (ix2 r j) = ix2 (0 : Fin 1) (colI j) := by
  funext a; match a with | ⟨0, _⟩ => rfl | ⟨1, _⟩ => rfl
theorem ix12_2_eq (r : Fin 2048) (j : Fin 128) : Value.ix12_2 (ix2 r j) = ix2 r (colU j) := by
  funext a; match a with | ⟨0, _⟩ => rfl | ⟨1, _⟩ => rfl
theorem ix12_3_eq (r : Fin 2048) (j : Fin 128) : Value.ix12_3 (ix2 r j) = ix2 (0 : Fin 1) (colU j) := by
  funext a; match a with | ⟨0, _⟩ => rfl | ⟨1, _⟩ => rfl
theorem ix12_4_eq (r : Fin 2048) (j : Fin 128) : Value.ix12_4 (ix2 r j) = ix2 r j := by
  funext a; match a with | ⟨0, _⟩ => rfl | ⟨1, _⟩ => rfl

/-! ## The two output tiles -/

/-- Entry `(r, j)` of the memory tile is the cell's new memory of the tile's node `r` at column `j`. -/
theorem memory_tile (P0 P1 : Vec Ideal S2048x128 .f32) (P2 P3 : Vec Ideal S128x384 .bf16) (P4 : Vec Ideal S1x384 .f32)
    (P5 P6 : Vec Ideal S2048x128 .f32) (P7 P8 : Vec Ideal S128x128 .bf16) (P9 P10 : Vec Ideal S1x128 .f32)
    (r : Fin 2048) (j : Fin 128) :
    Value.E12 (F := Ideal) P0 P1 P2 P3 P4 P5 P6 P7 P8 P9 P10 (ix2 r j)
      = newC (rowOf P0 r) (rowOf P5 r) (rowOf P1 r) (rowOf P6 r) P7 P8 P9 P10 P2 P3 P4 j := by
  show FloatOps.addf (FloatOps.mulf (FloatOps.logistic (FloatOps.addf (k0_pay6 P0 P1 P2 P3 (Value.ix12_0 (ix2 r j))) (P4 (Value.ix12_1 (ix2 r j)))))
      (FloatOps.tanh (FloatOps.addf (k0_pay6 P0 P1 P2 P3 (Value.ix12_2 (ix2 r j))) (P4 (Value.ix12_3 (ix2 r j))))))
      (k0_pay5 P0 P5 P6 P7 P8 P9 P10 (Value.ix12_4 (ix2 r j))) = _
  rw [ix12_0_eq, ix12_1_eq, ix12_2_eq, ix12_3_eq, ix12_4_eq, gate_apply, gate_apply, forget_apply]
  rfl

/-- Entry `(r, j)` of the hidden tile is the cell's new hidden value of the tile's node `r` at column `j`. -/
theorem hidden_tile (P0 P1 : Vec Ideal S2048x128 .f32) (P2 P3 : Vec Ideal S128x384 .bf16) (P4 : Vec Ideal S1x384 .f32)
    (P5 P6 : Vec Ideal S2048x128 .f32) (P7 P8 : Vec Ideal S128x128 .bf16) (P9 P10 : Vec Ideal S1x128 .f32)
    (r : Fin 2048) (j : Fin 128) :
    Value.E11 (F := Ideal) P0 P1 P2 P3 P4 P5 P6 P7 P8 P9 P10 (ix2 r j)
      = newH (rowOf P0 r) (rowOf P5 r) (rowOf P1 r) (rowOf P6 r) P7 P8 P9 P10 P2 P3 P4 j := by
  show FloatOps.mulf (FloatOps.logistic (FloatOps.addf (k0_pay6 P0 P1 P2 P3 (Value.ix11_0 (ix2 r j))) (P4 (Value.ix11_1 (ix2 r j)))))
      (FloatOps.tanh (FloatOps.addf (FloatOps.mulf (FloatOps.logistic (FloatOps.addf (k0_pay6 P0 P1 P2 P3 (Value.ix11_2 (ix2 r j))) (P4 (Value.ix11_3 (ix2 r j)))))
        (FloatOps.tanh (FloatOps.addf (k0_pay6 P0 P1 P2 P3 (Value.ix11_4 (ix2 r j))) (P4 (Value.ix11_5 (ix2 r j))))))
        (k0_pay5 P0 P5 P6 P7 P8 P9 P10 (Value.ix11_6 (ix2 r j))))) = _
  rw [ix11_0_eq, ix11_1_eq, ix11_2_eq, ix11_3_eq, ix11_4_eq, ix11_5_eq, ix11_6_eq, gate_apply, gate_apply, gate_apply, forget_apply]
  rfl

end Cert.KernelIdeal.Tile

end
-- ==== Proof.KernelArrays.lean ====
/-
  The kernel's two result arrays.

  The grid has 128 steps; step `t` works on the tile of nodes `2048 t … 2048 t + 2047`: the four row inputs' tiles
  and the whole weight and bias arrays go in, and the step's two output tiles are written back to the same rows of the
  two results. A tile of the cell's value is the cell's value of the tile's rows, because every node's value depends on
  that node's rows only; and the 128 tiles cover all 262144 nodes. So after the run each result array holds the cell's
  value of every node, computed from the arrays as the kernel call finds them.
-/
import proofs.«179906_j29386166239562_1_alg».proof.Proof.TileValue

set_option maxRecDepth 16384

noncomputable section

namespace Cert.KernelIdeal.Arrays

open Cert.KernelIdeal Cert.KernelIdeal.Gen Cert.KernelIdeal.Value Cert.KernelIdeal.Tile Idealize.ShloMosaic Idealize.ShloMosaic.TcCoe
open Idealize.SL.Sem Idealize.ShloMosaic.ValueIdx Cert.TreeCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## A step's output tiles as functions of its input tiles -/

/-- The hidden tile a step stores is the cell's new hidden value of each of the tile's 2048 nodes. -/
theorem hidden_tile_eq (x0 x1 x2 x3 : Vec Ideal S2048x128 .f32) (x4 x5 : Vec Ideal S128x128 .bf16)
    (x6 x7 : Vec Ideal S1x128 .f32) (x8 x9 : Vec Ideal S128x384 .bf16) (x10 : Vec Ideal S1x384 .f32) :
    out0_11 (F := Ideal) x0 x1 x2 x3 x4 x5 x6 x7 x8 x9 x10 = newHArr x0 x1 x2 x3 x4 x5 x6 x7 x8 x9 x10 := by
  funext y
  unfold out0_11
  simp only [View.ld_unit_zero (S := S2048x128) hz, View.ld_unit_zero (S := S128x128) hz, View.ld_unit_zero (S := S1x128) hz,
    View.ld_unit_zero (S := S128x384) hz, View.ld_unit_zero (S := S1x384) hz]
  refine (Value.canon11_eq _ _ _ _ _ _ _ _ _ _ _ y).trans ?_
  rw [eq_ix2 y]
  exact hidden_tile _ _ _ _ _ _ _ _ _ _ _ (y 0) (y 1)

/-- The memory tile a step stores is the cell's new memory of each of the tile's 2048 nodes. -/
theorem memory_tile_eq (x0 x1 x2 x3 : Vec Ideal S2048x128 .f32) (x4 x5 : Vec Ideal S128x128 .bf16)
    (x6 x7 : Vec Ideal S1x128 .f32) (x8 x9 : Vec Ideal S128x384 .bf16) (x10 : Vec Ideal S1x384 .f32) :
    out0_12 (F := Ideal) x0 x1 x2 x3 x4 x5 x6 x7 x8 x9 x10 = newCArr x0 x1 x2 x3 x4 x5 x6 x7 x8 x9 x10 := by
  funext y
  unfold out0_12
  simp only [View.ld_unit_zero (S := S2048x128) hz, View.ld_unit_zero (S := S128x128) hz, View.ld_unit_zero (S := S1x128) hz,
    View.ld_unit_zero (S := S128x384) hz, View.ld_unit_zero (S := S1x384) hz]
  refine (Value.canon12_eq _ _ _ _ _ _ _ _ _ _ _ y).trans ?_
  rw [eq_ix2 y]
  exact memory_tile _ _ _ _ _ _ _ _ _ _ _ (y 0) (y 1)

/-! ## Which rows a step's tiles are -/

/-- The printed index maps over the 128 steps: a row window's (and a result window's) block row is the step, its block
    column zero; a weight or bias window's block is the whole array at every step. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- A step is one of 128. -/
theorem step_lt (t : Fin cfg0.N) : t.val < 128 :=
  Nat.lt_of_lt_of_eq t.isLt (show cfg0.N = 128 from N_0)

/-- Node `r` of step `t`'s tile is node `2048 t + r` of the array. -/
def node (t : Fin cfg0.N) (r : Fin 2048) : Fin 262144 :=
  ⟨t.val * 2048 + r.val, by have := step_lt t; have := r.isLt; omega⟩

/-! ## The arrays the kernel call finds, and a step's tiles of them, at their literal shapes -/

abbrev arrX (c : Dev nD) : Vec Ideal S262144x128 .f32 := V m c main_arg0
abbrev arrH (c : Dev nD) : Vec Ideal S262144x128 .f32 := V m c main_arg1
abbrev arrHs (c : Dev nD) : Vec Ideal S262144x128 .f32 := V m c main_v9
abbrev arrCs (c : Dev nD) : Vec Ideal S262144x128 .f32 := V m c main_v19
abbrev arrWf (c : Dev nD) : Vec Ideal S128x128 .bf16 := V m c main_v21
abbrev arrUf (c : Dev nD) : Vec Ideal S128x128 .bf16 := V m c main_v23
abbrev arrUfb (c : Dev nD) : Vec Ideal S1x128 .f32 := V m c main_v28
abbrev arrBf (c : Dev nD) : Vec Ideal S1x128 .f32 := V m c main_arg11
abbrev arrWi (c : Dev nD) : Vec Ideal S128x384 .bf16 := V m c main_v25
abbrev arrUi (c : Dev nD) : Vec Ideal S128x384 .bf16 := V m c main_v27
abbrev arrBi (c : Dev nD) : Vec Ideal S1x384 .f32 := V m c main_arg7

abbrev tileX (c : Dev nD) (t : Fin cfg0.N) : Vec Ideal S2048x128 .f32 := iblk m c 0 t
abbrev tileH (c : Dev nD) (t : Fin cfg0.N) : Vec Ideal S2048x128 .f32 := iblk m c 1 t
abbrev tileHs (c : Dev nD) (t : Fin cfg0.N) : Vec Ideal S2048x128 .f32 := iblk m c 2 t
abbrev tileCs (c : Dev nD) (t : Fin cfg0.N) : Vec Ideal S2048x128 .f32 := iblk m c 3 t
abbrev tileWf (c : Dev nD) (t : Fin cfg0.N) : Vec Ideal S128x128 .bf16 := iblk m c 4 t
abbrev tileUf (c : Dev nD) (t : Fin cfg0.N) : Vec Ideal S128x128 .bf16 := iblk m c 5 t
abbrev tileUfb (c : Dev nD) (t : Fin cfg0.N) : Vec Ideal S1x128 .f32 := iblk m c 6 t
abbrev tileBf (c : Dev nD) (t : Fin cfg0.N) : Vec Ideal S1x128 .f32 := iblk m c 7 t
abbrev tileWi (c : Dev nD) (t : Fin cfg0.N) : Vec Ideal S128x384 .bf16 := iblk m c 8 t
abbrev tileUi (c : Dev nD) (t : Fin cfg0.N) : Vec Ideal S128x384 .bf16 := iblk m c 9 t
abbrev tileBi (c : Dev nD) (t : Fin cfg0.N) : Vec Ideal S1x384 .f32 := iblk m c 10 t

/-- Row `r` of step `t`'s tile of the inputs is row `2048 t + r` of the array. -/
theorem tileX_row (c : Dev nD) (t : Fin cfg0.N) (r : Fin 2048) : rowOf (tileX m c t) r = rowOf (arrX m c) (node t r) := by
  obtain ⟨⟨e0, e1⟩, -⟩ := idx_facts t
  funext k
  show V m c main_arg0 (((cfg0.win 0).blk t).view.emb (ix2 r k)) = V m c main_arg0 (ix2 (node t r) k)
  refine congrArg _ ?_
  funext a; apply Fin.ext
  match a with
  | ⟨0, _⟩ => show win0_0.index t (0 : Fin 2) * 2048 + 1 * r.val = t.val * 2048 + r.val; omega
  | ⟨1, _⟩ => show win0_0.index t (1 : Fin 2) * 128 + 1 * k.val = k.val; omega

theorem tileH_row (c : Dev nD) (t : Fin cfg0.N) (r : Fin 2048) : rowOf (tileH m c t) r = rowOf (arrH m c) (node t r) := by
  obtain ⟨e0, e1⟩ := (idx_facts t).2.1
  funext k
  show V m c main_arg1 (((cfg0.win 1).blk t).view.emb (ix2 r k)) = V m c main_arg1 (ix2 (node t r) k)
  refine congrArg _ ?_
  funext a; apply Fin.ext
  match a with
  | ⟨0, _⟩ => show win0_1.index t (0 : Fin 2) * 2048 + 1 * r.val = t.val * 2048 + r.val; omega
  | ⟨1, _⟩ => show win0_1.index t (1 : Fin 2) * 128 + 1 * k.val = k.val; omega

theorem tileHs_row (c : Dev nD) (t : Fin cfg0.N) (r : Fin 2048) : rowOf (tileHs m c t) r = rowOf (arrHs m c) (node t r) := by
  obtain ⟨e0, e1⟩ := (idx_facts t).2.2.1
  funext k
  show V m c main_v9 (((cfg0.win 2).blk t).view.emb (ix2 r k)) = V m c main_v9 (ix2 (node t r) k)
  refine congrArg _ ?_
  funext a; apply Fin.ext
  match a with
  | ⟨0, _⟩ => show win0_2.index t (0 : Fin 2) * 2048 + 1 * r.val = t.val * 2048 + r.val; omega
  | ⟨1, _⟩ => show win0_2.index t (1 : Fin 2) * 128 + 1 * k.val = k.val; omega

theorem tileCs_row (c : Dev nD) (t : Fin cfg0.N) (r : Fin 2048) : rowOf (tileCs m c t) r = rowOf (arrCs m c) (node t r) := by
  obtain ⟨e0, e1⟩ := (idx_facts t).2.2.2.1
  funext k
  show V m c main_v19 (((cfg0.win 3).blk t).view.emb (ix2 r k)) = V m c main_v19 (ix2 (node t r) k)
  refine congrArg _ ?_
  funext a; apply Fin.ext
  match a with
  | ⟨0, _⟩ => show win0_3.index t (0 : Fin 2) * 2048 + 1 * r.val = t.val * 2048 + r.val; omega
  | ⟨1, _⟩ => show win0_3.index t (1 : Fin 2) * 128 + 1 * k.val = k.val; omega

/-- A weight or bias window's tile is the whole array at every step. -/
theorem tileWf_eq (c : Dev nD) (t : Fin cfg0.N) : tileWf m c t = arrWf m c := by
  obtain ⟨e0, e1⟩ := (idx_facts t).2.2.2.2.1
  funext z
  show V m c main_v21 (((cfg0.win 4).blk t).view.emb z) = V m c main_v21 z
  refine congrArg _ ?_
  funext a; apply Fin.ext
  match a with
  | ⟨0, _⟩ => show win0_4.index t (0 : Fin 2) * 128 + 1 * (z 0).val = (z 0).val; omega
  | ⟨1, _⟩ => show win0_4.index t (1 : Fin 2) * 128 + 1 * (z 1).val = (z 1).val; omega

theorem tileUf_eq (c : Dev nD) (t : Fin cfg0.N) : tileUf m c t = arrUf m c := by
  obtain ⟨e0, e1⟩ := (idx_facts t).2.2.2.2.2.1
  funext z
  show V m c main_v23 (((cfg0.win 5).blk t).view.emb z) = V m c main_v23 z
  refine congrArg _ ?_
  funext a; apply Fin.ext
  match a with
  | ⟨0, _⟩ => show win0_5.index t (0 : Fin 2) * 128 + 1 * (z 0).val = (z 0).val; omega
  | ⟨1, _⟩ => show win0_5.index t (1 : Fin 2) * 128 + 1 * (z 1).val = (z 1).val; omega

theorem tileUfb_eq (c : Dev nD) (t : Fin cfg0.N) : tileUfb m c t = arrUfb m c := by
  obtain ⟨e0, e1⟩ := (idx_facts t).2.2.2.2.2.2.1
  funext z
  show V m c main_v28 (((cfg0.win 6).blk t).view.emb z) = V m c main_v28 z
  refine congrArg _ ?_
  funext a; apply Fin.ext
  match a with
  | ⟨0, _⟩ => show win0_6.index t (0 : Fin 2) * 1 + 1 * (z 0).val = (z 0).val; omega
  | ⟨1, _⟩ => show win0_6.index t (1 : Fin 2) * 128 + 1 * (z 1).val = (z 1).val; omega

theorem tileBf_eq (c : Dev nD) (t : Fin cfg0.N) : tileBf m c t = arrBf m c := by
  obtain ⟨e0, e1⟩ := (idx_facts t).2.2.2.2.2.2.2.1
  funext z
  show V m c main_arg11 (((cfg0.win 7).blk t).view.emb z) = V m c main_arg11 z
  refine congrArg _ ?_
  funext a; apply Fin.ext
  match a with
  | ⟨0, _⟩ => show win0_7.index t (0 : Fin 2) * 1 + 1 * (z 0).val = (z 0).val; omega
  | ⟨1, _⟩ => show win0_7.index t (1 : Fin 2) * 128 + 1 * (z 1).val = (z 1).val; omega

theorem tileWi_eq (c : Dev nD) (t : Fin cfg0.N) : tileWi m c t = arrWi m c := by
  obtain ⟨e0, e1⟩ := (idx_facts t).2.2.2.2.2.2.2.2.1
  funext z
  show V m c main_v25 (((cfg0.win 8).blk t).view.emb z) = V m c main_v25 z
  refine congrArg _ ?_
  funext a; apply Fin.ext
  match a with
  | ⟨0, _⟩ => show win0_8.index t (0 : Fin 2) * 128 + 1 * (z 0).val = (z 0).val; omega
  | ⟨1, _⟩ => show win0_8.index t (1 : Fin 2) * 384 + 1 * (z 1).val = (z 1).val; omega

theorem tileUi_eq (c : Dev nD) (t : Fin cfg0.N) : tileUi m c t = arrUi m c := by
  obtain ⟨e0, e1⟩ := (idx_facts t).2.2.2.2.2.2.2.2.2.1
  funext z
  show V m c main_v27 (((cfg0.win 9).blk t).view.emb z) = V m c main_v27 z
  refine congrArg _ ?_
  funext a; apply Fin.ext
  match a with
  | ⟨0, _⟩ => show win0_9.index t (0 : Fin 2) * 128 + 1 * (z 0).val = (z 0).val; omega
  | ⟨1, _⟩ => show win0_9.index t (1 : Fin 2) * 384 + 1 * (z 1).val = (z 1).val; omega

theorem tileBi_eq (c : Dev nD) (t : Fin cfg0.N) : tileBi m c t = arrBi m c := by
  obtain ⟨e0, e1⟩ := (idx_facts t).2.2.2.2.2.2.2.2.2.2.1
  funext z
  show V m c main_arg7 (((cfg0.win 10).blk t).view.emb z) = V m c main_arg7 z
  refine congrArg _ ?_
  funext a; apply Fin.ext
  match a with
  | ⟨0, _⟩ => show win0_10.index t (0 : Fin 2) * 1 + 1 * (z 0).val = (z 0).val; omega
  | ⟨1, _⟩ => show win0_10.index t (1 : Fin 2) * 384 + 1 * (z 1).val = (z 1).val; omega

/-! ## The two results -/

/-- What step `t` writes back to the hidden result is the tile, at the step's rows, of the cell's value of the whole arrays. -/
theorem flushed11_eq (c : Dev nD) (t : Fin cfg0.N) :
    (dats m 0 c).flushed 11 t = ((cfg0.win 11).blk t).view.read (Elt Ideal) (newHArr (arrX m c) (arrH m c) (arrHs m c) (arrCs m c) (arrWf m c) (arrUf m c) (arrUfb m c) (arrBf m c) (arrWi m c) (arrUi m c) (arrBi m c)) := by
  rw [Value.flushed11, hidden_tile_eq]
  obtain ⟨e0, e1⟩ := (idx_facts t).2.2.2.2.2.2.2.2.2.2.2.1
  funext y
  obtain ⟨r, j, rfl⟩ : ∃ (r : Fin 2048) (j : Fin 128), y = ix2 r j := ⟨y 0, y 1, eq_ix2 y⟩
  have hemb : (((cfg0.win 11).blk t).view.emb (ix2 r j) : S262144x128.Idx) = ix2 (node t r) j := by
    funext a; apply Fin.ext
    match a with
    | ⟨0, _⟩ => show win0_11.index t (0 : Fin 2) * 2048 + 1 * r.val = t.val * 2048 + r.val; omega
    | ⟨1, _⟩ => show win0_11.index t (1 : Fin 2) * 128 + 1 * j.val = j.val; omega
  show newHArr (tileX m c t) (tileH m c t) (tileHs m c t) (tileCs m c t) (tileWf m c t) (tileUf m c t) (tileUfb m c t) (tileBf m c t) (tileWi m c t) (tileUi m c t) (tileBi m c t) (ix2 r j) = newHArr (arrX m c) (arrH m c) (arrHs m c) (arrCs m c) (arrWf m c) (arrUf m c) (arrUfb m c) (arrBf m c) (arrWi m c) (arrUi m c) (arrBi m c) (((cfg0.win 11).blk t).view.emb (ix2 r j))
  rw [hemb]
  show newH (rowOf (tileX m c t) r) (rowOf (tileH m c t) r) (rowOf (tileHs m c t) r) (rowOf (tileCs m c t) r) (tileWf m c t) (tileUf m c t) (tileUfb m c t) (tileBf m c t) (tileWi m c t) (tileUi m c t) (tileBi m c t) j
     = newH (rowOf (arrX m c) (node t r)) (rowOf (arrH m c) (node t r)) (rowOf (arrHs m c) (node t r)) (rowOf (arrCs m c) (node t r)) (arrWf m c) (arrUf m c) (arrUfb m c) (arrBf m c) (arrWi m c) (arrUi m c) (arrBi m c) j
  rw [tileX_row, tileH_row, tileHs_row, tileCs_row, tileWf_eq, tileUf_eq, tileUfb_eq, tileBf_eq, tileWi_eq, tileUi_eq, tileBi_eq]

/-- An index of the result is in step `t`'s block iff each coordinate is in the block's range on its axis. -/
theorem mem_blk11 (t : Fin cfg0.N) (i : S262144x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v29_0).slice (win0_11.rect t)).set ↔ _
  rw [View.set_slice_whole, Rect.mem_set_unit]
  exact Iff.rfl

/-- Node `n` lies in the block of step `n / 2048`: the 128 blocks cover the result. -/
theorem cover11 (i : S262144x128.Idx) : ∃ t : Fin cfg0.N, (cfg0.win 11).flush t = true ∧ i ∈ ((cfg0.win 11).blk t).view.set := by
  have hi0 : (i 0).val < 262144 := (i 0).isLt
  have hi1 : (i 1).val < 128 := (i 1).isLt
  have ht : (i 0).val / 2048 < cfg0.N := Nat.lt_of_lt_of_eq (by omega : (i 0).val / 2048 < 128) (show cfg0.N = 128 from N_0).symm
  obtain ⟨e0, e1⟩ := (idx_facts ⟨(i 0).val / 2048, ht⟩).2.2.2.2.2.2.2.2.2.2.2.1
  refine ⟨⟨(i 0).val / 2048, ht⟩, flush0_11 _, ?_⟩
  rw [mem_blk11]
  intro a
  match a with
  | ⟨0, _⟩ =>
    show win0_11.index ⟨(i 0).val / 2048, ht⟩ (0 : Fin 2) * 2048 ≤ (i 0).val ∧ (i 0).val < win0_11.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_11.index ⟨(i 0).val / 2048, ht⟩ (1 : Fin 2) * 128 ≤ (i 1).val ∧ (i 1).val < win0_11.index ⟨(i 0).val / 2048, ht⟩ (1 : Fin 2) * 128 + 128
    rw [e1]; omega

/-- The hidden result after the run: the cell's value of every node. -/
theorem final11 (c : Dev nD) : (dats m 0 c).arrAt 11 cfg0.N = newHArr (arrX m c) (arrH m c) (arrHs m c) (arrCs m c) (arrWf m c) (arrUf m c) (arrUfb m c) (arrBf m c) (arrWi m c) (arrUi m c) (arrBi m c) :=
  (dats m 0 c).arrAt_eq_of_cover 11 (newHArr (arrX m c) (arrH m c) (arrHs m c) (arrCs m c) (arrWf m c) (arrUf m c) (arrUfb m c) (arrBf m c) (arrWi m c) (arrUi m c) (arrBi m c)) (fun t _ => flushed11_eq m c t) cover11

/-- What step `t` writes back to the memory result is the tile, at the step's rows, of the cell's value of the whole arrays. -/
theorem flushed12_eq (c : Dev nD) (t : Fin cfg0.N) :
    (dats m 0 c).flushed 12 t = ((cfg0.win 12).blk t).view.read (Elt Ideal) (newCArr (arrX m c) (arrH m c) (arrHs m c) (arrCs m c) (arrWf m c) (arrUf m c) (arrUfb m c) (arrBf m c) (arrWi m c) (arrUi m c) (arrBi m c)) := by
  rw [Value.flushed12, memory_tile_eq]
  obtain ⟨e0, e1⟩ := (idx_facts t).2.2.2.2.2.2.2.2.2.2.2.2
  funext y
  obtain ⟨r, j, rfl⟩ : ∃ (r : Fin 2048) (j : Fin 128), y = ix2 r j := ⟨y 0, y 1, eq_ix2 y⟩
  have hemb : (((cfg0.win 12).blk t).view.emb (ix2 r j) : S262144x128.Idx) = ix2 (node t r) j := by
    funext a; apply Fin.ext
    match a with
    | ⟨0, _⟩ => show win0_12.index t (0 : Fin 2) * 2048 + 1 * r.val = t.val * 2048 + r.val; omega
    | ⟨1, _⟩ => show win0_12.index t (1 : Fin 2) * 128 + 1 * j.val = j.val; omega
  show newCArr (tileX m c t) (tileH m c t) (tileHs m c t) (tileCs m c t) (tileWf m c t) (tileUf m c t) (tileUfb m c t) (tileBf m c t) (tileWi m c t) (tileUi m c t) (tileBi m c t) (ix2 r j) = newCArr (arrX m c) (arrH m c) (arrHs m c) (arrCs m c) (arrWf m c) (arrUf m c) (arrUfb m c) (arrBf m c) (arrWi m c) (arrUi m c) (arrBi m c) (((cfg0.win 12).blk t).view.emb (ix2 r j))
  rw [hemb]
  show newC (rowOf (tileX m c t) r) (rowOf (tileH m c t) r) (rowOf (tileHs m c t) r) (rowOf (tileCs m c t) r) (tileWf m c t) (tileUf m c t) (tileUfb m c t) (tileBf m c t) (tileWi m c t) (tileUi m c t) (tileBi m c t) j
     = newC (rowOf (arrX m c) (node t r)) (rowOf (arrH m c) (node t r)) (rowOf (arrHs m c) (node t r)) (rowOf (arrCs m c) (node t r)) (arrWf m c) (arrUf m c) (arrUfb m c) (arrBf m c) (arrWi m c) (arrUi m c) (arrBi m c) j
  rw [tileX_row, tileH_row, tileHs_row, tileCs_row, tileWf_eq, tileUf_eq, tileUfb_eq, tileBf_eq, tileWi_eq, tileUi_eq, tileBi_eq]

/-- An index of the result is in step `t`'s block iff each coordinate is in the block's range on its axis. -/
theorem mem_blk12 (t : Fin cfg0.N) (i : S262144x128.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v29_1).slice (win0_12.rect t)).set ↔ _
  rw [View.set_slice_whole, Rect.mem_set_unit]
  exact Iff.rfl

/-- Node `n` lies in the block of step `n / 2048`: the 128 blocks cover the result. -/
theorem cover12 (i : S262144x128.Idx) : ∃ t : Fin cfg0.N, (cfg0.win 12).flush t = true ∧ i ∈ ((cfg0.win 12).blk t).view.set := by
  have hi0 : (i 0).val < 262144 := (i 0).isLt
  have hi1 : (i 1).val < 128 := (i 1).isLt
  have ht : (i 0).val / 2048 < cfg0.N := Nat.lt_of_lt_of_eq (by omega : (i 0).val / 2048 < 128) (show cfg0.N = 128 from N_0).symm
  obtain ⟨e0, e1⟩ := (idx_facts ⟨(i 0).val / 2048, ht⟩).2.2.2.2.2.2.2.2.2.2.2.2
  refine ⟨⟨(i 0).val / 2048, ht⟩, flush0_12 _, ?_⟩
  rw [mem_blk12]
  intro a
  match a with
  | ⟨0, _⟩ =>
    show win0_12.index ⟨(i 0).val / 2048, ht⟩ (0 : Fin 2) * 2048 ≤ (i 0).val ∧ (i 0).val < win0_12.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_12.index ⟨(i 0).val / 2048, ht⟩ (1 : Fin 2) * 128 ≤ (i 1).val ∧ (i 1).val < win0_12.index ⟨(i 0).val / 2048, ht⟩ (1 : Fin 2) * 128 + 128
    rw [e1]; omega

/-- The memory result after the run: the cell's value of every node. -/
theorem final12 (c : Dev nD) : (dats m 0 c).arrAt 12 cfg0.N = newCArr (arrX m c) (arrH m c) (arrHs m c) (arrCs m c) (arrWf m c) (arrUf m c) (arrUfb m c) (arrBf m c) (arrWi m c) (arrUi m c) (arrBi m c) :=
  (dats m 0 c).arrAt_eq_of_cover 12 (newCArr (arrX m c) (arrH m c) (arrHs m c) (arrCs m c) (arrWf m c) (arrUf m c) (arrUfb m c) (arrBf m c) (arrWi m c) (arrUi m c) (arrBi m c)) (fun t _ => flushed12_eq m c t) cover12

/-! ## The run, read -/

/-- Every weakly fair execution of the kernel's program ends with the two results at the cell's value of every node —
    computed from the arrays as the kernel call finds them — and the arguments unchanged. -/
theorem run : θ_run defs (onTc (τ := τ) (main (F := Ideal))) ⟨m, fun _ => 0, ρ⟩ fun r => ∀ c : Dev nD,
      r.2.mem ((c : Thread nD τ).loc main_v29_0) = newHArr (arrX m c) (arrH m c) (arrHs m c) (arrCs m c) (arrWf m c) (arrUf m c) (arrUfb m c) (arrBf m c) (arrWi m c) (arrUi m c) (arrBi m c)
      ∧ r.2.mem ((c : Thread nD τ).loc main_v29_1) = newCArr (arrX m c) (arrH m c) (arrHs m c) (arrCs m c) (arrWf m c) (arrUf m c) (arrUfb m c) (arrBf m c) (arrWi m c) (arrUi m c) (arrBi m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final11 m c), (h c).2.1.trans (final12 m c), (h c).2.2⟩)
    (Value.run_blocks m ρ)

end Cert.KernelIdeal.Arrays

end
-- ==== Proof.RefCell.lean ====
/-
  The reference, node by node.

  The reference computes the same cell on whole arrays: two products of the 262144 × 128 inputs with the transposed
  128 × 128 forget weights, two with the transposed 128 × 384 gate weights (the second over the mailbox sum of the
  children's hidden rows), the bias rows broadcast down the nodes, the three gate slices, and the logistic function
  spelt `1 / (1 + exp (-x))`. Read at node `r` and column `j` each of its two results is the cell's value of that
  node's rows; the transposed weights, the one-row form of the forget bias and the two mailbox sums enter as they are.
-/
import proofs.«179906_j29386166239562_1_alg».proof.Proof.Gen.ReferenceIdeal.Read
import proofs.«179906_j29386166239562_1_alg».proof.Proof.Spec
import Idealize.ShloMosaic.Lib.IdealHost

noncomputable section

namespace Cert.ReferenceIdeal.Cell

open Cert.ReferenceIdeal Cert.ReferenceIdeal.Gen Cert.ReferenceIdeal.Read Idealize.ShloMosaic Idealize.ShloMosaic.ValueIdx Cert.TreeCell
open scoped BigOperators

variable (x0 x1 x2 : FVec Ideal S262144x128 .f32) (x3 x4 : IVec S262144 32) (x5 x6 : FVec Ideal S384x128 .f32)
  (x7 : FVec Ideal S1x384 .f32) (x8 : FVec Ideal S128x128 .f32) (x9 : FVec Ideal S128 .f32) (x10 : FVec Ideal S128x128 .f32)
  (x11 : FVec Ideal S1x128 .f32)

/-! ## Where each operation reads its operands, at node `r` -/

theorem lidx21 (r : Fin 262144) (j k : Fin 128) : lidx_main_v21 (ix2 r j) k = ix2 r k := by
  funext a; match a with | ⟨0, _⟩ => rfl | ⟨1, _⟩ => rfl
theorem ridx21 (r : Fin 262144) (j k : Fin 128) : ridx_main_v21 (ix2 r j) k = ix2 k j := by
  funext a; match a with | ⟨0, _⟩ => rfl | ⟨1, _⟩ => rfl
theorem lidx23 (r : Fin 262144) (j k : Fin 128) : lidx_main_v23 (ix2 r j) k = ix2 r k := by
  funext a; match a with | ⟨0, _⟩ => rfl | ⟨1, _⟩ => rfl
theorem ridx23 (r : Fin 262144) (j k : Fin 128) : ridx_main_v23 (ix2 r j) k = ix2 k j := by
  funext a; match a with | ⟨0, _⟩ => rfl | ⟨1, _⟩ => rfl
theorem idx26 (r : Fin 262144) (j : Fin 128) : idx_main_v26 (ix2 r j) = ix2 (0 : Fin 1) j := by
  funext a; match a with | ⟨0, _⟩ => rfl | ⟨1, _⟩ => rfl
theorem idx28 (r : Fin 262144) (j : Fin 128) : idx_main_v28 (ix2 r j) = ix2 (0 : Fin 1) j := by
  funext a; match a with | ⟨0, _⟩ => rfl | ⟨1, _⟩ => rfl
theorem lidx38 (r : Fin 262144) (q : Fin 384) (k : Fin 128) : lidx_main_v38 (ix2 r q) k = ix2 r k := by
  funext a; match a with | ⟨0, _⟩ => rfl | ⟨1, _⟩ => rfl
theorem ridx38 (r : Fin 262144) (q : Fin 384) (k : Fin 128) : ridx_main_v38 (ix2 r q) k = ix2 k q := by
  funext a; match a with | ⟨0, _⟩ => rfl | ⟨1, _⟩ => rfl
theorem lidx40 (r : Fin 262144) (q : Fin 384) (k : Fin 128) : lidx_main_v40 (ix2 r q) k = ix2 r k := by
  funext a; match a with | ⟨0, _⟩ => rfl | ⟨1, _⟩ => rfl
theorem ridx40 (r : Fin 262144) (q : Fin 384) (k : Fin 128) : ridx_main_v40 (ix2 r q) k = ix2 k q := by
  funext a; match a with | ⟨0, _⟩ => rfl | ⟨1, _⟩ => rfl
theorem idx42 (r : Fin 262144) (q : Fin 384) : idx_main_v42 (ix2 r q) = ix2 (0 : Fin 1) q := by
  funext a; match a with | ⟨0, _⟩ => rfl | ⟨1, _⟩ => rfl
theorem idx44 (r : Fin 262144) (j : Fin 128) : idx_main_v44 (ix2 r j) = ix2 r (colI j) := by
  funext a; match a with | ⟨0, _⟩ => rfl | ⟨1, _⟩ => rfl
theorem idx45 (r : Fin 262144) (j : Fin 128) : idx_main_v45 (ix2 r j) = ix2 r (colO j) := by
  funext a; match a with | ⟨0, _⟩ => rfl | ⟨1, _⟩ => exact Fin.ext (Nat.add_comm _ _)
theorem idx46 (r : Fin 262144) (j : Fin 128) : idx_main_v46 (ix2 r j) = ix2 r (colU j) := by
  funext a; match a with | ⟨0, _⟩ => rfl | ⟨1, _⟩ => exact Fin.ext (Nat.add_comm _ _)

/-! ## The two pre-activations -/

/-- The forget gate's argument at node `r`, column `j`. -/
theorem forget_arg (r : Fin 262144) (j : Fin 128) :
    val_main_v29 (F := Ideal) x0 x1 x8 x9 x10 x11 (ix2 r j)
      = forgetPre (rowOf x0 r) (rowOf x1 r) (val_main_v20 (F := Ideal) x10) (val_main_v22 (F := Ideal) x8)
          (val_main_v25 (F := Ideal) x9) x11 j := by
  rw [val_main_v29_apply, val_main_v27_apply, val_main_v24_apply, val_main_v21_apply, val_main_v23_apply,
    val_main_v26_apply, val_main_v28_apply]
  simp only [lidx21, ridx21, lidx23, ridx23, idx26, idx28]
  rfl

/-- The gate matrix at node `r`, column `q`. -/
theorem gate_arg (r : Fin 262144) (q : Fin 384) :
    val_main_v43 (F := Ideal) x0 x1 x3 x4 x5 x6 x7 (ix2 r q)
      = gatePre (rowOf x0 r) (rowOf (val_main_v9 (F := Ideal) x1 x3 x4) r) (val_main_v37 (F := Ideal) x5)
          (val_main_v39 (F := Ideal) x6) x7 q := by
  rw [val_main_v43_apply, val_main_v41_apply, val_main_v38_apply, val_main_v40_apply, val_main_v42_apply]
  simp only [lidx38, ridx38, lidx40, ridx40, idx42]
  rfl

/-! ## The gates -/

/-- The forget gate: the logistic function of its argument. -/
theorem forget_gate (r : Fin 262144) (j : Fin 128) :
    val_main_v35 (F := Ideal) x0 x1 x8 x9 x10 x11 (ix2 r j)
      = Ideal.logistic (val_main_v29 (F := Ideal) x0 x1 x8 x9 x10 x11 (ix2 r j)) := by
  rw [val_main_v35_apply, val_main_v34_apply, val_main_v33_apply, val_main_v32_apply, val_main_v31_apply, val_main_v30_apply]
  exact logistic_spelt _

/-- The input gate: the logistic function of the gate matrix's column `j`. -/
theorem input_gate (r : Fin 262144) (j : Fin 128) :
    val_main_v52 (F := Ideal) x0 x1 x3 x4 x5 x6 x7 (ix2 r j)
      = Ideal.logistic (val_main_v43 (F := Ideal) x0 x1 x3 x4 x5 x6 x7 (ix2 r (colI j))) := by
  rw [val_main_v52_apply, val_main_v51_apply, val_main_v50_apply, val_main_v49_apply, val_main_v48_apply, val_main_v47_apply,
    val_main_v44_apply, idx44]
  exact logistic_spelt _

/-- The output gate: the logistic function of the gate matrix's column `j + 128`. -/
theorem output_gate (r : Fin 262144) (j : Fin 128) :
    val_main_v61 (F := Ideal) x0 x1 x3 x4 x5 x6 x7 (ix2 r j)
      = Ideal.logistic (val_main_v43 (F := Ideal) x0 x1 x3 x4 x5 x6 x7 (ix2 r (colO j))) := by
  rw [val_main_v61_apply, val_main_v60_apply, val_main_v59_apply, val_main_v58_apply, val_main_v57_apply, val_main_v56_apply,
    val_main_v45_apply, idx45]
  exact logistic_spelt _

/-- The update candidate: the hyperbolic tangent of the gate matrix's column `j + 256`. -/
theorem update_cand (r : Fin 262144) (j : Fin 128) :
    val_main_v53 (F := Ideal) x0 x1 x3 x4 x5 x6 x7 (ix2 r j)
      = Ideal.tanh (val_main_v43 (F := Ideal) x0 x1 x3 x4 x5 x6 x7 (ix2 r (colU j))) := by
  rw [val_main_v53_apply, val_main_v46_apply, idx46]
  rfl

/-! ## The two results -/

/-- The reference's new memory at node `r`, column `j`, is the cell's. -/
theorem memory_apply (r : Fin 262144) (j : Fin 128) :
    val_main_v55 (F := Ideal) x0 x1 x2 x3 x4 x5 x6 x7 x8 x9 x10 x11 (ix2 r j)
      = newC (rowOf x0 r) (rowOf x1 r) (rowOf (val_main_v9 (F := Ideal) x1 x3 x4) r) (rowOf (val_main_v19 (F := Ideal) x2 x3 x4) r)
          (val_main_v20 (F := Ideal) x10) (val_main_v22 (F := Ideal) x8) (val_main_v25 (F := Ideal) x9) x11
          (val_main_v37 (F := Ideal) x5) (val_main_v39 (F := Ideal) x6) x7 j := by
  rw [val_main_v55_apply, val_main_v54_apply, val_main_v36_apply, input_gate, update_cand, forget_gate, gate_arg, gate_arg, forget_arg]
  rfl

/-- The reference's new hidden value at node `r`, column `j`, is the cell's. -/
theorem hidden_apply (r : Fin 262144) (j : Fin 128) :
    val_main_v63 (F := Ideal) x0 x1 x2 x3 x4 x5 x6 x7 x8 x9 x10 x11 (ix2 r j)
      = newH (rowOf x0 r) (rowOf x1 r) (rowOf (val_main_v9 (F := Ideal) x1 x3 x4) r) (rowOf (val_main_v19 (F := Ideal) x2 x3 x4) r)
          (val_main_v20 (F := Ideal) x10) (val_main_v22 (F := Ideal) x8) (val_main_v25 (F := Ideal) x9) x11
          (val_main_v37 (F := Ideal) x5) (val_main_v39 (F := Ideal) x6) x7 j := by
  rw [val_main_v63_apply, val_main_v62_apply, output_gate, gate_arg, memory_apply]
  rfl

/-- The reference's new memory, as one array: the cell's value of every node. -/
theorem memory_eq :
    val_main_v55 (F := Ideal) x0 x1 x2 x3 x4 x5 x6 x7 x8 x9 x10 x11
      = newCArr x0 x1 (val_main_v9 (F := Ideal) x1 x3 x4) (val_main_v19 (F := Ideal) x2 x3 x4)
          (val_main_v20 (F := Ideal) x10) (val_main_v22 (F := Ideal) x8) (val_main_v25 (F := Ideal) x9) x11
          (val_main_v37 (F := Ideal) x5) (val_main_v39 (F := Ideal) x6) x7 := by
  funext i
  rw [eq_ix2 i]
  exact memory_apply x0 x1 x2 x3 x4 x5 x6 x7 x8 x9 x10 x11 (i 0) (i 1)

/-- The reference's new hidden state, as one array: the cell's value of every node. -/
theorem hidden_eq :
    val_main_v63 (F := Ideal) x0 x1 x2 x3 x4 x5 x6 x7 x8 x9 x10 x11
      = newHArr x0 x1 (val_main_v9 (F := Ideal) x1 x3 x4) (val_main_v19 (F := Ideal) x2 x3 x4)
          (val_main_v20 (F := Ideal) x10) (val_main_v22 (F := Ideal) x8) (val_main_v25 (F := Ideal) x9) x11
          (val_main_v37 (F := Ideal) x5) (val_main_v39 (F := Ideal) x6) x7 := by
  funext i
  rw [eq_ix2 i]
  exact hidden_apply x0 x1 x2 x3 x4 x5 x6 x7 x8 x9 x10 x11 (i 0) (i 1)

end Cert.ReferenceIdeal.Cell

end
-- ==== Proof.Bridge.lean ====
/-
  What the kernel call finds, in the reference's words.

  Before the kernel call the program builds, on the host, the two mailbox sums (a gather of the children's rows by
  the source indices — a negative index wrapped round by the node count — scatter-added at the destination indices into
  zeros), the four transposed weight matrices (their change of float format is the identity over the reals), and the
  forget bias as one row. The reference builds the same mailbox sums with the same operations and the same transposes;
  it makes the one-row bias by a broadcast instead of a reshape, which reads the same entries. So the kernel's two
  results are the cell's value of every node computed from exactly the arrays the reference computes it from.
-/
import proofs.«179906_j29386166239562_1_alg».proof.Proof.KernelArrays
import proofs.«179906_j29386166239562_1_alg».proof.Proof.RefCell
import Idealize.ShloMosaic.Lib.StableHlo.Run
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.StableHlo
open Idealize.SL.Sem Idealize.ShloMosaic.ValueIdx Cert.TreeCell

variable (m : (ℓ : Loc nD τ sig) → Buf (Elt Ideal) ℓ) (ρ : Dev nD → PrngReg)

/-! ## The argument arrays at their literal shapes -/

abbrev arg0 (c : Dev nD) : FVec Ideal S262144x128 .f32 := m ((c : Thread nD τ).loc main_arg0)
abbrev arg1 (c : Dev nD) : FVec Ideal S262144x128 .f32 := m ((c : Thread nD τ).loc main_arg1)
abbrev arg2 (c : Dev nD) : FVec Ideal S262144x128 .f32 := m ((c : Thread nD τ).loc main_arg2)
abbrev arg3 (c : Dev nD) : IVec S262144 32 := m ((c : Thread nD τ).loc main_arg3)
abbrev arg4 (c : Dev nD) : IVec S262144 32 := m ((c : Thread nD τ).loc main_arg4)
abbrev arg5 (c : Dev nD) : FVec Ideal S384x128 .f32 := m ((c : Thread nD τ).loc main_arg5)
abbrev arg6 (c : Dev nD) : FVec Ideal S384x128 .f32 := m ((c : Thread nD τ).loc main_arg6)
abbrev arg7 (c : Dev nD) : FVec Ideal S1x384 .f32 := m ((c : Thread nD τ).loc main_arg7)
abbrev arg8 (c : Dev nD) : FVec Ideal S128x128 .f32 := m ((c : Thread nD τ).loc main_arg8)
abbrev arg9 (c : Dev nD) : FVec Ideal S128 .f32 := m ((c : Thread nD τ).loc main_arg9)
abbrev arg10 (c : Dev nD) : FVec Ideal S128x128 .f32 := m ((c : Thread nD τ).loc main_arg10)
abbrev arg11 (c : Dev nD) : FVec Ideal S1x128 .f32 := m ((c : Thread nD τ).loc main_arg11)

/-! ## The arrays the kernel call finds -/

theorem x_eq (c : Dev nD) : Arrays.arrX m c = arg0 m c := V_main_arg0 m c
theorem h_eq (c : Dev nD) : Arrays.arrH m c = arg1 m c := V_main_arg1 m c
theorem bf_eq (c : Dev nD) : Arrays.arrBf m c = arg11 m c := V_main_arg11 m c
theorem bi_eq (c : Dev nD) : Arrays.arrBi m c = arg7 m c := V_main_arg7 m c

set_option maxHeartbeats 2000000 in
/-- The mailbox sum of the children's hidden rows is the reference's. -/
theorem hs_eq (c : Dev nD) : Arrays.arrHs m c = Cert.ReferenceIdeal.Read.val_main_v9 (F := Ideal) (arg1 m c) (arg3 m c) (arg4 m c) := by
  show V m c main_v9 = _
  dsimp only [Gen.V, Gen.hostOps0]
  after_results_simp
  rfl

set_option maxHeartbeats 2000000 in
/-- The mailbox sum of the children's memory rows is the reference's. -/
theorem cs_eq (c : Dev nD) : Arrays.arrCs m c = Cert.ReferenceIdeal.Read.val_main_v19 (F := Ideal) (arg2 m c) (arg3 m c) (arg4 m c) := by
  show V m c main_v19 = _
  dsimp only [Gen.V, Gen.hostOps0]
  after_results_simp
  rfl

set_option maxHeartbeats 2000000 in
/-- The transposed forget weights of the input. -/
theorem wf_eq (c : Dev nD) : Arrays.arrWf m c = Cert.ReferenceIdeal.Read.val_main_v20 (F := Ideal) (arg10 m c) := by
  show V m c main_v21 = _
  dsimp only [Gen.V, Gen.hostOps0]
  after_results_simp
  rfl

set_option maxHeartbeats 2000000 in
/-- The transposed forget weights of the hidden state. -/
theorem uf_eq (c : Dev nD) : Arrays.arrUf m c = Cert.ReferenceIdeal.Read.val_main_v22 (F := Ideal) (arg8 m c) := by
  show V m c main_v23 = _
  dsimp only [Gen.V, Gen.hostOps0]
  after_results_simp
  rfl

set_option maxHeartbeats 2000000 in
/-- The transposed gate weights of the input. -/
theorem wi_eq (c : Dev nD) : Arrays.arrWi m c = Cert.ReferenceIdeal.Read.val_main_v37 (F := Ideal) (arg5 m c) := by
  show V m c main_v25 = _
  dsimp only [Gen.V, Gen.hostOps0]
  after_results_simp
  rfl

set_option maxHeartbeats 2000000 in
/-- The transposed gate weights of the mailbox sum. -/
theorem ui_eq (c : Dev nD) : Arrays.arrUi m c = Cert.ReferenceIdeal.Read.val_main_v39 (F := Ideal) (arg6 m c) := by
  show V m c main_v27 = _
  dsimp only [Gen.V, Gen.hostOps0]
  after_results_simp
  rfl

/-- A vector of 128 reshaped to one row and the same vector broadcast to one row read the same entries. -/
theorem one_row (x : FVec Ideal S128 .f32) (h1 : S128.ShapeCasts S1x128)
    (h2 : S128.BroadcastsInDim S1x128 (![1] : Fin 1 → Fin S1x128.rank)) :
    shapeCast S1x128 x h1 = broadcastInDim S1x128 ![1] h2 x := by
  funext i
  obtain ⟨u, j, rfl⟩ : ∃ (u : Fin 1) (j : Fin 128), i = ix2 u j := ⟨i 0, i 1, eq_ix2 i⟩
  rw [shapeCast_a_1a_apply]
  exact (broadcastInDim_apply ![1] h2 x (ix2 u j) (ix1 j) (fun a => match a with
    | ⟨0, _⟩ => by show j.val = if (128 : Nat) = 1 then 0 else j.val; rw [if_neg (by decide)])).symm

set_option maxHeartbeats 2000000 in
/-- The forget bias as one row. -/
theorem ufb_eq (c : Dev nD) : Arrays.arrUfb m c = Cert.ReferenceIdeal.Read.val_main_v25 (F := Ideal) (arg9 m c) := by
  show V m c main_v28 = _
  dsimp only [Gen.V, Gen.hostOps0]
  after_results_simp
  exact one_row _ _ _

/-! ## The kernel's run over the argument arrays -/

/-- Every weakly fair execution of the kernel's program ends with the two results at the cell's value of every node,
    computed from the argument arrays as the reference computes it, and the arguments unchanged. -/
theorem run : θ_run defs (onTc (τ := τ) (main (F := Ideal))) ⟨m, fun _ => 0, ρ⟩ fun r => ∀ c : Dev nD,
      r.2.mem ((c : Thread nD τ).loc main_v29_0) = newHArr (arg0 m c) (arg1 m c) (Cert.ReferenceIdeal.Read.val_main_v9 (F := Ideal) (arg1 m c) (arg3 m c) (arg4 m c)) (Cert.ReferenceIdeal.Read.val_main_v19 (F := Ideal) (arg2 m c) (arg3 m c) (arg4 m c)) (Cert.ReferenceIdeal.Read.val_main_v20 (F := Ideal) (arg10 m c)) (Cert.ReferenceIdeal.Read.val_main_v22 (F := Ideal) (arg8 m c)) (Cert.ReferenceIdeal.Read.val_main_v25 (F := Ideal) (arg9 m c)) (arg11 m c) (Cert.ReferenceIdeal.Read.val_main_v37 (F := Ideal) (arg5 m c)) (Cert.ReferenceIdeal.Read.val_main_v39 (F := Ideal) (arg6 m c)) (arg7 m c)
      ∧ r.2.mem ((c : Thread nD τ).loc main_v29_1) = newCArr (arg0 m c) (arg1 m c) (Cert.ReferenceIdeal.Read.val_main_v9 (F := Ideal) (arg1 m c) (arg3 m c) (arg4 m c)) (Cert.ReferenceIdeal.Read.val_main_v19 (F := Ideal) (arg2 m c) (arg3 m c) (arg4 m c)) (Cert.ReferenceIdeal.Read.val_main_v20 (F := Ideal) (arg10 m c)) (Cert.ReferenceIdeal.Read.val_main_v22 (F := Ideal) (arg8 m c)) (Cert.ReferenceIdeal.Read.val_main_v25 (F := Ideal) (arg9 m c)) (arg11 m c) (Cert.ReferenceIdeal.Read.val_main_v37 (F := Ideal) (arg5 m c)) (Cert.ReferenceIdeal.Read.val_main_v39 (F := Ideal) (arg6 m c)) (arg7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c =>
      ⟨(h c).1.trans (by rw [x_eq, h_eq, hs_eq, cs_eq, wf_eq, uf_eq, ufb_eq, bf_eq, wi_eq, ui_eq, bi_eq]),
       (h c).2.1.trans (by rw [x_eq, h_eq, hs_eq, cs_eq, wf_eq, uf_eq, ufb_eq, bf_eq, wi_eq, ui_eq, bi_eq]),
       (h c).2.2⟩)
    (Arrays.run m ρ)

end Cert.KernelIdeal.Bridge

end
-- ==== Proof.lean ====
/- The TreeLSTM cell kernel against its reference, over the extended reals.

   Both programs first form the two mailbox sums on the host (the children's hidden and memory rows gathered by the
   source indices and scatter-added at the destination indices) with the same operations. The kernel then runs 128
   grid steps, each computing the cell for a tile of 2048 nodes: the forget gate `σ (x wfᵀ + h ufᵀ + ufb + bf)`, the gate
   matrix `x wiᵀ + hs uiᵀ + bi` cut into its input, output and update thirds, the new memory `σ(i) tanh(u) + f · cs` and
   the new hidden state `σ(o) tanh(c')`. The reference computes the same expressions on the whole arrays, the logistic
   function spelt `1 / (1 + exp (-x))`. Over the extended reals a change of float format is the identity, a matrix
   product accumulated from zero is the plain sum over the contracted axis, and the two spellings of the logistic
   function are one function; and every node's value depends on that node's rows only, so the 128 tiles of 2048
   nodes are the tiles of the whole arrays' result. No algebraic law beyond these readings is used, and none that
   needs the inputs finite.

   Modules: Proof/Spec.lean (the cell of one node), Proof/TileProducts.lean and Proof/TileValue.lean (one grid step's
   tiles), Proof/KernelArrays.lean (the kernel's two results), Proof/RefCell.lean (the reference node by node),
   Proof/Bridge.lean (what the kernel call finds, in the reference's words); the claims are assembled here. -/
import proofs.«179906_j29386166239562_1_alg».proof.Defs
import proofs.«179906_j29386166239562_1_alg».proof.Proof.Gen.Kernel
import proofs.«179906_j29386166239562_1_alg».proof.Proof.Gen.Kernel.Frame
import proofs.«179906_j29386166239562_1_alg».proof.Proof.Gen.KernelIdeal
import proofs.«179906_j29386166239562_1_alg».proof.Proof.Gen.KernelIdeal.Frame
import proofs.«179906_j29386166239562_1_alg».proof.Proof.Gen.ReferenceIdeal
import proofs.«179906_j29386166239562_1_alg».proof.Proof.Gen.Pre_finite_inputs
import proofs.«179906_j29386166239562_1_alg».proof.Proof.Gen.KernelIdeal.Value
import proofs.«179906_j29386166239562_1_alg».proof.Proof.Gen.ReferenceIdeal.Run
import proofs.«179906_j29386166239562_1_alg».proof.Proof.Gen.ReferenceIdeal.Read
import proofs.«179906_j29386166239562_1_alg».proof.Proof.Bridge
import Idealize.ShloMosaic.Adequacy
import Idealize.ShloMosaic.Init

noncomputable section

namespace Cert.Proof

open Idealize.ShloMosaic Idealize.SL.Sem

/-- The kernel's program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the cell's new hidden state and new memory of
    every node: the kernel's tiles assembled, the reference's arrays read node by node. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v63_eq, Cert.ReferenceIdeal.Cell.hidden_eq, a0, a1, a2, a3, a4, a5, a6, a7, a8, a9, a10, a11]
  · obtain ⟨a0, a1, a2, a3, a4, a5, a6, a7, a8, a9, a10, a11⟩ := hagree c
    rw [Cert.ReferenceIdeal.Read.val_main_v55_eq, Cert.ReferenceIdeal.Cell.memory_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
